-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768x256 : Shape := ⟨2, ![32768, 256]⟩
abbrev S1024 : Shape := ⟨1, ![1024]⟩
abbrev S1024x256 : Shape := ⟨2, ![1024, 256]⟩
abbrev S256x1024 : Shape := ⟨2, ![256, 1024]⟩
abbrev S256x256 : Shape := ⟨2, ![256, 256]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256x1024 : S_.BroadcastsInDim S256x1024 (![] : Fin 0 → Fin S256x1024.rank)
  reducesTo_S256x1024_S_d0_1 : S256x1024.ReducesTo [0, 1] S_
  bcast_S_S256x256 : S_.BroadcastsInDim S256x256 (![] : Fin 0 → Fin S256x256.rank)
  reducesTo_S256x256_S_d0_1 : S256x256.ReducesTo [0, 1] S_
  reducesTo_S_S_d : S_.ReducesTo [] S_

variable [Facts]

def fn_part2 {F : FTy → Type} [FloatOps F] (main_arg8 : FVec F S_ .f32) (main_arg9 : FVec F S_ .f32) (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  let main_v37 : FVec F S_ .f32 := Host.absf main_arg8
  let main_cst_14 : FVec F S_ .f32 := constant S_ .f32 0x7F800000#32
  let main_v38 : IVec S_ 1 := cmpf .olt main_v37 main_cst_14
  let main_c_15 : IVec S_ 1 := constantI S_ 1 1#1
  let main_v39 : IVec S_ 1 := (fun x v => Host.reduce IntOp.andi x v reducesTo_S_S_d h_S_) main_v38 main_c_15
  let main_v40 : IVec S_ 1 := andi main_v36 main_v39
  let main_v41 : FVec F S_ .f32 := Host.absf main_arg9
  let main_cst_16 : FVec F S_ .f32 := constant S_ .f32 0x7F800000#32
  let main_v42 : IVec S_ 1 := cmpf .olt main_v41 main_cst_16
  let main_c_17 : IVec S_ 1 := constantI S_ 1 1#1
  let main_v43 : IVec S_ 1 := (fun x v => Host.reduce IntOp.andi x v reducesTo_S_S_d h_S_) main_v42 main_c_17
  let main_v44 : IVec S_ 1 := andi main_v40 main_v43
  main_v44

def fn_part1 {F : FTy → Type} [FloatOps F] (main_arg4 : FVec F S256x1024 .f32) (main_arg5 : FVec F S256x256 .f32) (main_arg6 : FVec F S_ .f32) (main_arg7 : FVec F S_ .f32) (main_arg8 : FVec F S_ .f32) (main_arg9 : FVec F S_ .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S_ .f32 := Host.absf main_arg7
  fn_part2 (F := F) main_arg8 main_arg9 main_v32 main_v33

def fn {F : FTy → Type} [FloatOps F] (main_arg0 : FVec F S32768x1024 .f32) (main_arg1 : FVec F S32768x256 .f32) (main_arg2 : FVec F S1024 .f32) (main_arg3 : FVec F S1024x256 .f32) (main_arg4 : FVec F S256x1024 .f32) (main_arg5 : FVec F S256x256 .f32) (main_arg6 : FVec F S_ .f32) (main_arg7 : FVec F S_ .f32) (main_arg8 : FVec F S_ .f32) (main_arg9 : FVec F S_ .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_arg9 main_v13 main_v16
-- ==== Kernel.lean ====
abbrev S32768x1024 : Shape := ⟨2, ![32768, 1024]⟩
abbrev S32768x256 : Shape := ⟨2, ![32768, 256]⟩
abbrev S1024 : Shape := ⟨1, ![1024]⟩
abbrev S1024x256 : Shape := ⟨2, ![1024, 256]⟩
abbrev S256x1024 : Shape := ⟨2, ![256, 1024]⟩
abbrev S256x256 : Shape := ⟨2, ![256, 256]⟩
abbrev S_ : Shape := ⟨0, ![]⟩
abbrev S1x1024 : Shape := ⟨2, ![1, 1024]⟩
abbrev S1024x1024 : Shape := ⟨2, ![1024, 1024]⟩

abbrev nBuf : Space → Nat
  | .hbm => 42
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x256, .f32⟩
  | .hbm, ⟨4, _⟩ => ⟨S256x1024, .f32⟩
  | .hbm, ⟨5, _⟩ => ⟨S256x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .i1⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024x256, .f32⟩
  | .hbm, ⟨28, _⟩ => ⟨S1024x256, .f32⟩
  | .hbm, ⟨29, _⟩ => ⟨S256x1024, .f32⟩
  | .hbm, ⟨30, _⟩ => ⟨S256x1024, .f32⟩
  | .hbm, ⟨31, _⟩ => ⟨S256x256, .f32⟩
  | .hbm, ⟨32, _⟩ => ⟨S256x256, .f32⟩
  | .hbm, ⟨33, _⟩ => ⟨S1x1024, .f32⟩
  | .hbm, ⟨34, _⟩ => ⟨S256x1024, .f32⟩
  | .hbm, ⟨35, _⟩ => ⟨S256x1024, .bf16⟩
  | .hbm, ⟨36, _⟩ => ⟨S1024x256, .f32⟩
  | .hbm, ⟨37, _⟩ => ⟨S1024x256, .bf16⟩
  | .hbm, ⟨38, _⟩ => ⟨S256x256, .f32⟩
  | .hbm, ⟨39, _⟩ => ⟨S256x256, .bf16⟩
  | .hbm, ⟨40, _⟩ => ⟨S32768x1024, .f32⟩
  | .hbm, ⟨41, _⟩ => ⟨S32768x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S256x1024, .bf16⟩
  | .local _ .vmem, ⟨6, _⟩ => ⟨S1024x256, .bf16⟩
  | .local _ .vmem, ⟨7, _⟩ => ⟨S256x256, .bf16⟩
  | .local _ .vmem, ⟨8, _⟩ => ⟨S1024x1024, .f32⟩
  | .local _ .vmem, ⟨9, _⟩ => ⟨S1024x1024, .f32⟩
  | .local _ .vmem, ⟨10, _⟩ => ⟨S1024x256, .f32⟩
  | .local _ .vmem, ⟨11, _⟩ => ⟨S1024x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17_0 : Ref sig .tc := ⟨.hbm, 40, rfl⟩
abbrev main_v17_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1024 : S_.BroadcastsInDim S1024 (![] : Fin 0 → Fin S1024.rank)
  bcast_S_S1024x256 : S_.BroadcastsInDim S1024x256 (![] : Fin 0 → Fin S1024x256.rank)
  bcast_S_S256x1024 : S_.BroadcastsInDim S256x1024 (![] : Fin 0 → Fin S256x1024.rank)
  bcast_S_S256x256 : S_.BroadcastsInDim S256x256 (![] : Fin 0 → Fin S256x256.rank)
  shapeCasts_S1024_S1x1024 : S1024.ShapeCasts S1x1024
  transposes_S1024x256_S256x1024_1_0 : S1024x256.Transposes [1, 0] S256x1024
  bitsLt_bf16_f32 : FTy.bits .bf16 < FTy.bits .f32
  transposes_S256x1024_S1024x256_1_0 : S256x1024.Transposes [1, 0] S1024x256
  transposes_S256x256_S256x256_1_0 : S256x256.Transposes [1, 0] S256x256
  inb_S1024x1024_S1024x1024_0_0 : ∀ a, (![0, 0] : Fin 2 → Nat) a + S1024x1024.size a ≤ S1024x1024.size a
  h_S1024x1024 : 0 < S1024x1024.numel
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x1024_S1024x1024 : S1x1024.Broadcasts S1024x1024
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .bf16 = 32 ∨ (Rect.block (s := S1024x256) S1024x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S32768x256.size a
  hwx0_7 : ∀ i : grid0.Coords, EltTy.bits .f32 = 32 ∨ (Rect.block (s := S32768x256) S1024x256.size (cc0_transform_7 i) (hinb0_7 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17_0) S1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768x256 : Shape := ⟨2, ![32768, 256]⟩
abbrev S1024 : Shape := ⟨1, ![1024]⟩
abbrev S1024x256 : Shape := ⟨2, ![1024, 256]⟩
abbrev S256x1024 : Shape := ⟨2, ![256, 1024]⟩
abbrev S256x256 : Shape := ⟨2, ![256, 256]⟩
abbrev S_ : Shape := ⟨0, ![]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x256, .f32⟩
  | .hbm, ⟨4, _⟩ => ⟨S256x1024, .f32⟩
  | .hbm, ⟨5, _⟩ => ⟨S256x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .i1⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024x256, .f32⟩
  | .hbm, ⟨28, _⟩ => ⟨S1024x256, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S256x1024, .f32⟩
  | .hbm, ⟨33, _⟩ => ⟨S32768x1024, .f32⟩
  | .hbm, ⟨34, _⟩ => ⟨S32768x1024, .f32⟩
  | .hbm, ⟨35, _⟩ => ⟨S256x1024, .f32⟩
  | .hbm, ⟨36, _⟩ => ⟨S256x1024, .f32⟩
  | .hbm, ⟨37, _⟩ => ⟨S256x256, .f32⟩
  | .hbm, ⟨38, _⟩ => ⟨S256x256, .f32⟩
  | .hbm, ⟨39, _⟩ => ⟨S1024x256, .f32⟩
  | .hbm, ⟨40, _⟩ => ⟨S32768x256, .f32⟩
  | .hbm, ⟨41, _⟩ => ⟨S256x256, .f32⟩
  | .hbm, ⟨42, _⟩ => ⟨S32768x256, .f32⟩
  | .hbm, ⟨43, _⟩ => ⟨S32768x256, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S_S1024x256 : S_.BroadcastsInDim S1024x256 (![] : Fin 0 → Fin S1024x256.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  transposes_S1024x256_S256x1024_1_0 : S1024x256.Transposes [1, 0] S256x1024
  bcast_S_S256x1024 : S_.BroadcastsInDim S256x1024 (![] : Fin 0 → Fin S256x1024.rank)
  bcast_S_S256x256 : S_.BroadcastsInDim S256x256 (![] : Fin 0 → Fin S256x256.rank)
  transposes_S256x1024_S1024x256_1_0 : S256x1024.Transposes [1, 0] S1024x256
  transposes_S256x256_S256x256_1_0 : S256x256.Transposes [1, 0] S256x256
  dot_S32768x256_S256x1024_S32768x1024_1_0_0_1_n_n_wf : DotDims.WF S32768x256 S256x1024 S32768x1024 [1] [0] [0] [1] [] []
  dot_S32768x1024_S1024x256_S32768x256_1_0_0_1_n_n_wf : DotDims.WF S32768x1024 S1024x256 S32768x256 [1] [0] [0] [1] [] []
  dot_S32768x256_S256x256_S32768x256_1_0_0_1_n_n_wf : DotDims.WF S32768x256 S256x256 S32768x256 [1] [0] [0] [1] [] []

variable [Facts₀]

def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def dot_S32768x1024_S1024x256_S32768x256_1_0_0_1_n_n : DotDims S32768x1024 S1024x256 S32768x256 where
  lhsContracting := [1]
  rhsContracting := [0]
  lhsNonContracting := [0]
  rhsNonContracting := [1]
  lhsBatch := []
  rhsBatch := []
  wf := dot_S32768x1024_S1024x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf

class Facts : Prop extends Facts₀ where

variable [Facts]
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Spec.lean ====
/-
  The quantized state-space step, as two functions of arrays over the extended reals.

  For a batch of `R` rows, a state width 1024 and input and output widths 256:
    next state  x'[p, q] = x[p, q] · a[q] + ∑ k < 256, u[p, k] · bt[k, q]
    output      y[p, q]  = ∑ k < 1024, x'[p, k] · ct[k, q] + ∑ k < 256, u[p, k] · dt[k, q]
  where `a` is the (already dequantized) diagonal of the state matrix (`negSoftplus` of the scaled quantized diagonal) and `bt`, `ct`, `dt` are the dequantized
  input, output and feed-through matrices, each already transposed. The row count is a parameter: a block of 1024
  rows and the whole batch of 32768 rows are the same two functions, and a row of a block depends on that row of
  the arrays only, which is what makes the blocks of the result the results of the blocks (`nextState_rows`,
  `output_rows`).
-/
import Idealize.ShloMosaic.Lib.ValueIdx
import Idealize.ShloMosaic.PureOps.Ideal.Laws

open scoped BigOperators

noncomputable section

namespace Cert.Ssm

open Idealize.ShloMosaic Idealize.ShloMosaic.ValueIdx

variable {R : Nat}

/-- The next state at row `p`, column `q`. -/
def nextAt (x : (⟨2, ![R, 1024]⟩ : Shape).Idx → EReal) (u : (⟨2, ![R, 256]⟩ : Shape).Idx → EReal)
    (a : (⟨1, ![1024]⟩ : Shape).Idx → EReal) (bt : (⟨2, ![256, 1024]⟩ : Shape).Idx → EReal) (p : Fin R) (q : Fin 1024) : EReal :=
  x (ix2 p q) * a (ix1 q) + ∑ k : Fin 256, u (ix2 p k) * bt (ix2 k q)

/-- The next state, as an array. -/
def nextState (x : (⟨2, ![R, 1024]⟩ : Shape).Idx → EReal) (u : (⟨2, ![R, 256]⟩ : Shape).Idx → EReal)
    (a : (⟨1, ![1024]⟩ : Shape).Idx → EReal) (bt : (⟨2, ![256, 1024]⟩ : Shape).Idx → EReal) :
    (⟨2, ![R, 1024]⟩ : Shape).Idx → EReal :=
  fun i => nextAt x u a bt (i 0) (i 1)

theorem nextState_apply (x : (⟨2, ![R, 1024]⟩ : Shape).Idx → EReal) (u : (⟨2, ![R, 256]⟩ : Shape).Idx → EReal)
    (a : (⟨1, ![1024]⟩ : Shape).Idx → EReal) (bt : (⟨2, ![256, 1024]⟩ : Shape).Idx → EReal) (p : Fin R) (q : Fin 1024) :
    nextState x u a bt (ix2 p q) = x (ix2 p q) * a (ix1 q) + ∑ k : Fin 256, u (ix2 p k) * bt (ix2 k q) := rfl

/-- The output at row `p`, column `q`, from a next state `xn`. -/
def outputAt (xn : (⟨2, ![R, 1024]⟩ : Shape).Idx → EReal) (u : (⟨2, ![R, 256]⟩ : Shape).Idx → EReal)
    (ct : (⟨2, ![1024, 256]⟩ : Shape).Idx → EReal) (dt : (⟨2, ![256, 256]⟩ : Shape).Idx → EReal) (p : Fin R) (q : Fin 256) : EReal :=
  (∑ k : Fin 1024, xn (ix2 p k) * ct (ix2 k q)) + ∑ k : Fin 256, u (ix2 p k) * dt (ix2 k q)

/-- The output, as an array. -/
def output (xn : (⟨2, ![R, 1024]⟩ : Shape).Idx → EReal) (u : (⟨2, ![R, 256]⟩ : Shape).Idx → EReal)
    (ct : (⟨2, ![1024, 256]⟩ : Shape).Idx → EReal) (dt : (⟨2, ![256, 256]⟩ : Shape).Idx → EReal) :
    (⟨2, ![R, 256]⟩ : Shape).Idx → EReal :=
  fun i => outputAt xn u ct dt (i 0) (i 1)

theorem output_apply (xn : (⟨2, ![R, 1024]⟩ : Shape).Idx → EReal) (u : (⟨2, ![R, 256]⟩ : Shape).Idx → EReal)
    (ct : (⟨2, ![1024, 256]⟩ : Shape).Idx → EReal) (dt : (⟨2, ![256, 256]⟩ : Shape).Idx → EReal) (p : Fin R) (q : Fin 256) :
    output xn u ct dt (ix2 p q) = (∑ k : Fin 1024, xn (ix2 p k) * ct (ix2 k q)) + ∑ k : Fin 256, u (ix2 p k) * dt (ix2 k q) := rfl

/-! ## The diagonal's dequantization -/

/-- The negated softplus of a vector `z`, entry by entry `-(log(1 + e^z))`, in the numerically careful form both
    programs spell: `max(z, 0) + log1p(exp(-|z - 0|))`, guarded by a self-comparison of `z - 0` that picks `z + 0`
    instead where it fires. `hb` is the shape fact that a scalar broadcasts to the vector. -/
def negSoftplus (hb : (⟨0, ![]⟩ : Shape).BroadcastsInDim ⟨1, ![1024]⟩ (![] : Fin 0 → Fin (⟨1, ![1024]⟩ : Shape).rank))
    (z : FVec Ideal ⟨1, ![1024]⟩ .f32) : FVec Ideal ⟨1, ![1024]⟩ .f32 :=
  Host.negf (select (cmpf .une (subf z (broadcastInDim ⟨1, ![1024]⟩ ![] hb (constant (F := Ideal) ⟨0, ![]⟩ .f32 0x00000000#32))) (subf z (broadcastInDim ⟨1, ![1024]⟩ ![] hb (constant (F := Ideal) ⟨0, ![]⟩ .f32 0x00000000#32)))) (addf z (broadcastInDim ⟨1, ![1024]⟩ ![] hb (constant (F := Ideal) ⟨0, ![]⟩ .f32 0x00000000#32)))
    (addf (maximumf z (broadcastInDim ⟨1, ![1024]⟩ ![] hb (constant (F := Ideal) ⟨0, ![]⟩ .f32 0x00000000#32))) (Host.log1p (Host.exp (Host.negf (Host.absf (subf z (broadcastInDim ⟨1, ![1024]⟩ ![] hb (constant (F := Ideal) ⟨0, ![]⟩ .f32 0x00000000#32)))))))))

/-! ## Rows of the result are results of the rows -/

variable {R' : Nat}

/-- If the rows of `xb`, `ub` are the rows `r p` of `x`, `u`, and the weights agree, the next state of the former at
    row `p` is the next state of the latter at row `r p`. -/
theorem nextState_rows (r : Fin R' → Fin R)
    (xb : (⟨2, ![R', 1024]⟩ : Shape).Idx → EReal) (ub : (⟨2, ![R', 256]⟩ : Shape).Idx → EReal)
    (ab : (⟨1, ![1024]⟩ : Shape).Idx → EReal) (btb : (⟨2, ![256, 1024]⟩ : Shape).Idx → EReal)
    (x : (⟨2, ![R, 1024]⟩ : Shape).Idx → EReal) (u : (⟨2, ![R, 256]⟩ : Shape).Idx → EReal)
    (a : (⟨1, ![1024]⟩ : Shape).Idx → EReal) (bt : (⟨2, ![256, 1024]⟩ : Shape).Idx → EReal)
    (hx : ∀ p q, xb (ix2 p q) = x (ix2 (r p) q)) (hu : ∀ p k, ub (ix2 p k) = u (ix2 (r p) k))
    (ha : ∀ q, ab (ix1 q) = a (ix1 q)) (hb : ∀ k q, btb (ix2 k q) = bt (ix2 k q)) (p : Fin R') (q : Fin 1024) :
    nextState xb ub ab btb (ix2 p q) = nextState x u a bt (ix2 (r p) q) := by
  rw [nextState_apply, nextState_apply, hx, ha]
  simp only [hu, hb]

/-- The same for the output, given the next states' rows. -/
theorem output_rows (r : Fin R' → Fin R)
    (xnb : (⟨2, ![R', 1024]⟩ : Shape).Idx → EReal) (ub : (⟨2, ![R', 256]⟩ : Shape).Idx → EReal)
    (ctb : (⟨2, ![1024, 256]⟩ : Shape).Idx → EReal) (dtb : (⟨2, ![256, 256]⟩ : Shape).Idx → EReal)
    (xn : (⟨2, ![R, 1024]⟩ : Shape).Idx → EReal) (u : (⟨2, ![R, 256]⟩ : Shape).Idx → EReal)
    (ct : (⟨2, ![1024, 256]⟩ : Shape).Idx → EReal) (dt : (⟨2, ![256, 256]⟩ : Shape).Idx → EReal)
    (hx : ∀ p k, xnb (ix2 p k) = xn (ix2 (r p) k)) (hu : ∀ p k, ub (ix2 p k) = u (ix2 (r p) k))
    (hc : ∀ k q, ctb (ix2 k q) = ct (ix2 k q)) (hd : ∀ k q, dtb (ix2 k q) = dt (ix2 k q)) (p : Fin R') (q : Fin 256) :
    output xnb ub ctb dtb (ix2 p q) = output xn u ct dt (ix2 (r p) q) := by
  rw [output_apply, output_apply]
  simp only [hx, hu, hc, hd]

end Cert.Ssm

end
-- ==== Proof.KernelBody.lean ====
/-
  The kernel body's two stored values, read at one element of a block, at the ideal values.

  The body loads a block `x` of 1024 state rows, the matching block `u` of input rows, the one row `a` of the
  diagonal and the three weight matrices whole, and stores
    x' = x · a (the row repeated down the block) + u · bt    (a matrix product into a zero accumulator)
    y  = x' · ct + u · dt                                    (two more such products).
  The narrowing of `u`, `x'` and the weights to sixteen bits is the identity on the extended reals, the casts of a
  shape to itself are identities, and each product into the zero accumulator is a plain sum over the contracted
  axis. So the two stored blocks are the specification's `nextState` and `output` of the loaded blocks.
-/
import proofs.«142602_j12369505812873_1_alg».proof.Proof.Gen.KernelIdeal.Skeleton
import proofs.«142602_j12369505812873_1_alg».proof.Proof.LibPlainDot
import proofs.«142602_j12369505812873_1_alg».proof.Proof.Spec
import Idealize.ShloMosaic.Lib.ValueLayout
import Idealize.ShloMosaic.Lib.Pipeline.Value

open scoped BigOperators

noncomputable section

namespace Cert.KernelIdeal.Body

open Cert.KernelIdeal Cert.KernelIdeal.Gen Idealize.ShloMosaic Idealize.ShloMosaic.TcCoe Idealize.ShloMosaic.ValueIdx

/-- The stored next-state block at `(p, q)`. -/
theorem state_block (v0 : Vec Ideal S1024x1024 .f32) (v1 : Vec Ideal S1024x256 .f32) (v2 : Vec Ideal S1x1024 .f32)
    (v5 : Vec Ideal S256x1024 .bf16) (p q : Fin 1024) :
    k0_pay2 v0 v1 v2 v5 (ix2 p q)
      = v0 (ix2 p q) * v2 (ix2 (0 : Fin 1) q) + ∑ k : Fin 256, v1 (ix2 p k) * v5 (ix2 k q) := by
  unfold k0_pay2 k0_pay1
  dsimp only
  rw [addf_apply, mulf_apply, broadcastTo_1b_ab_apply, shapeCast_self, shapeCast_self,
    PlainDot.matmul_zero_apply dot_S1024x256_S256x1024_S1024x1024_1_0_0_1_n_n rfl rfl rfl rfl rfl rfl rfl rfl]
  rfl

/-- The stored next-state block is the specification's next state of the loaded blocks. -/
theorem state_block_eq (v0 : Vec Ideal S1024x1024 .f32) (v1 : Vec Ideal S1024x256 .f32) (v2 : Vec Ideal S1x1024 .f32)
    (v5 : Vec Ideal S256x1024 .bf16) (p q : Fin 1024) :
    k0_pay2 v0 v1 v2 v5 (ix2 p q) = Cert.Ssm.nextState v0 v1 (fun i => v2 (ix2 (0 : Fin 1) (i 0))) v5 (ix2 p q) :=
  state_block v0 v1 v2 v5 p q

/-- The stored output block at `(p, q)`, over the stored next-state block. -/
theorem output_block (v0 : Vec Ideal S1024x1024 .f32) (v1 : Vec Ideal S1024x256 .f32) (v2 : Vec Ideal S1x1024 .f32)
    (v5 : Vec Ideal S256x1024 .bf16) (v7 : Vec Ideal S1024x256 .bf16) (v9 : Vec Ideal S256x256 .bf16) (p : Fin 1024) (q : Fin 256) :
    k0_pay3 v0 v1 v2 v5 v7 v9 (ix2 p q)
      = Cert.Ssm.output (k0_pay2 v0 v1 v2 v5) v1 v7 v9 (ix2 p q) := by
  unfold k0_pay3 k0_pay1
  dsimp only
  rw [addf_apply, shapeCast_self, shapeCast_self,
    PlainDot.matmul_zero_apply dot_S1024x1024_S1024x256_S1024x256_1_0_0_1_n_n rfl rfl rfl rfl rfl rfl rfl rfl,
    PlainDot.matmul_zero_apply dot_S1024x256_S256x256_S1024x256_1_0_0_1_n_n rfl rfl rfl rfl rfl rfl rfl rfl]
  rfl

end Cert.KernelIdeal.Body

end
-- ==== Proof.KernelValue.lean ====
/-
  From the blocks to the arrays: what the kernel's two result arrays hold after the run, at the ideal values.

  The grid has 32 points. Point `t` stages rows `1024·t … 1024·t + 1023` of the state `x` and of the inputs `u`,
  the diagonal's one row and the three weight matrices whole, and writes back rows `1024·t …` of the two results.
  A row of a result block depends only on the same row of the staged blocks, so block `t` of the specification's
  `nextState` / `output` of the whole arrays is the body's result on the staged blocks; the 32 blocks tile the 32768
  rows (row `r` lies in block `r / 1024`), so the arrays end holding the specification's two functions of the arrays
  as the region finds them.
-/
import proofs.«142602_j12369505812873_1_alg».proof.Proof.Gen.KernelIdeal.Value
import proofs.«142602_j12369505812873_1_alg».proof.Proof.KernelBody
import proofs.«142602_j12369505812873_1_alg».proof.Proof.Spec
import Idealize.ShloMosaic.Lib.Pipeline.Value

set_option maxRecDepth 16384

open scoped BigOperators

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays as the region finds them, and the two results as functions of them -/

abbrev xArr (c : Dev nD) : Vec Ideal S32768x1024 .f32 := V m c main_arg0
abbrev uArr (c : Dev nD) : Vec Ideal S32768x256 .f32 := V m c main_arg1
abbrev aArr (c : Dev nD) : Vec Ideal S1x1024 .f32 := V m c main_v10
abbrev btArr (c : Dev nD) : Vec Ideal S256x1024 .bf16 := V m c main_v12
abbrev ctArr (c : Dev nD) : Vec Ideal S1024x256 .bf16 := V m c main_v14
abbrev dtArr (c : Dev nD) : Vec Ideal S256x256 .bf16 := V m c main_v16

/-- The diagonal as a vector: the one row of the `[1, 1024]` array the region finds. -/
def diag (c : Dev nD) : (⟨1, ![1024]⟩ : Shape).Idx → EReal := fun i => aArr m c (ix2 (0 : Fin 1) (i 0))

/-- The next state of the whole batch. -/
def stateArr (c : Dev nD) : Vec Ideal S32768x1024 .f32 :=
  Cert.Ssm.nextState (xArr m c) (uArr m c) (diag m c) (btArr m c)

/-- The output of the whole batch. -/
def outArr (c : Dev nD) : Vec Ideal S32768x256 .f32 :=
  Cert.Ssm.output (stateArr m c) (uArr m c) (ctArr m c) (dtArr m c)

/-! ## The index maps over the grid -/

theorem t_lt : ∀ t : Fin cfg0.N, t.val < 32 := (by decide +kernel : ∀ t : Fin grid0.N, t.val < 32)
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-- Row `p` of point `t`'s blocks is row `1024·t + p` of the batch. -/
def row (t : Fin cfg0.N) (p : Fin 1024) : Fin 32768 := ⟨t.val * 1024 + p.val, by have := t_lt t; have := p.isLt; omega⟩

/-! ## The staged blocks, read off the arrays -/

abbrev xBlk (c : Dev nD) (t : Fin cfg0.N) : Vec Ideal S1024x1024 .f32 := iblk m c 0 t
abbrev uBlk (c : Dev nD) (t : Fin cfg0.N) : Vec Ideal S1024x256 .f32 := iblk m c 1 t
abbrev aBlk (c : Dev nD) (t : Fin cfg0.N) : Vec Ideal S1x1024 .f32 := iblk m c 2 t
abbrev btBlk (c : Dev nD) (t : Fin cfg0.N) : Vec Ideal S256x1024 .bf16 := iblk m c 3 t
abbrev ctBlk (c : Dev nD) (t : Fin cfg0.N) : Vec Ideal S1024x256 .bf16 := iblk m c 4 t
abbrev dtBlk (c : Dev nD) (t : Fin cfg0.N) : Vec Ideal S256x256 .bf16 := iblk m c 5 t

theorem xBlk_apply (c : Dev nD) (t : Fin cfg0.N) (p q : Fin 1024) : xBlk m c t (ix2 p q) = xArr m c (ix2 (row t p) q) := by
  show V m c main_arg0 (((cfg0.win 0).blk t).view.emb (ix2 p q)) = V m c main_arg0 (ix2 (row t p) q)
  refine congrArg _ (funext fun a => Fin.ext ?_)
  obtain ⟨e0, e1⟩ := idx0 t
  match a with
  | ⟨0, _⟩ => show win0_0.index t (0 : Fin 2) * 1024 + 1 * p.val = t.val * 1024 + p.val; omega
  | ⟨1, _⟩ => show win0_0.index t (1 : Fin 2) * 1024 + 1 * q.val = q.val; omega

theorem uBlk_apply (c : Dev nD) (t : Fin cfg0.N) (p : Fin 1024) (k : Fin 256) : uBlk m c t (ix2 p k) = uArr m c (ix2 (row t p) k) := by
  show V m c main_arg1 (((cfg0.win 1).blk t).view.emb (ix2 p k)) = V m c main_arg1 (ix2 (row t p) k)
  refine congrArg _ (funext fun a => Fin.ext ?_)
  obtain ⟨e0, e1⟩ := idx1 t
  match a with
  | ⟨0, _⟩ => show win0_1.index t (0 : Fin 2) * 1024 + 1 * p.val = t.val * 1024 + p.val; omega
  | ⟨1, _⟩ => show win0_1.index t (1 : Fin 2) * 256 + 1 * k.val = k.val; omega

theorem aBlk_apply (c : Dev nD) (t : Fin cfg0.N) (q : Fin 1024) : aBlk m c t (ix2 (0 : Fin 1) q) = aArr m c (ix2 (0 : Fin 1) q) := by
  show V m c main_v10 (((cfg0.win 2).blk t).view.emb (ix2 (0 : Fin 1) q)) = V m c main_v10 (ix2 (0 : Fin 1) q)
  refine congrArg _ (funext fun a => Fin.ext ?_)
  obtain ⟨e0, e1⟩ := idx2 t
  match a with
  | ⟨0, _⟩ => show win0_2.index t (0 : Fin 2) * 1 + 1 * 0 = 0; omega
  | ⟨1, _⟩ => show win0_2.index t (1 : Fin 2) * 1024 + 1 * q.val = q.val; omega

theorem btBlk_apply (c : Dev nD) (t : Fin cfg0.N) (k : Fin 256) (q : Fin 1024) : btBlk m c t (ix2 k q) = btArr m c (ix2 k q) := by
  show V m c main_v12 (((cfg0.win 3).blk t).view.emb (ix2 k q)) = V m c main_v12 (ix2 k q)
  refine congrArg _ (funext fun a => Fin.ext ?_)
  obtain ⟨e0, e1⟩ := idx3 t
  match a with
  | ⟨0, _⟩ => show win0_3.index t (0 : Fin 2) * 256 + 1 * k.val = k.val; omega
  | ⟨1, _⟩ => show win0_3.index t (1 : Fin 2) * 1024 + 1 * q.val = q.val; omega

theorem ctBlk_apply (c : Dev nD) (t : Fin cfg0.N) (k : Fin 1024) (q : Fin 256) : ctBlk m c t (ix2 k q) = ctArr m c (ix2 k q) := by
  show V m c main_v14 (((cfg0.win 4).blk t).view.emb (ix2 k q)) = V m c main_v14 (ix2 k q)
  refine congrArg _ (funext fun a => Fin.ext ?_)
  obtain ⟨e0, e1⟩ := idx4 t
  match a with
  | ⟨0, _⟩ => show win0_4.index t (0 : Fin 2) * 1024 + 1 * k.val = k.val; omega
  | ⟨1, _⟩ => show win0_4.index t (1 : Fin 2) * 256 + 1 * q.val = q.val; omega

theorem dtBlk_apply (c : Dev nD) (t : Fin cfg0.N) (k q : Fin 256) : dtBlk m c t (ix2 k q) = dtArr m c (ix2 k q) := by
  show V m c main_v16 (((cfg0.win 5).blk t).view.emb (ix2 k q)) = V m c main_v16 (ix2 k q)
  refine congrArg _ (funext fun a => Fin.ext ?_)
  obtain ⟨e0, e1⟩ := idx5 t
  match a with
  | ⟨0, _⟩ => show win0_5.index t (0 : Fin 2) * 256 + 1 * k.val = k.val; omega
  | ⟨1, _⟩ => show win0_5.index t (1 : Fin 2) * 256 + 1 * q.val = q.val; omega

/-! ## What a point stores, as the specification at the batch's rows -/

/-- The stored next-state block at `(p, q)` is the batch's next state at row `1024·t + p`. -/
theorem state_point (c : Dev nD) (t : Fin cfg0.N) (p q : Fin 1024) :
    k0_pay2 (xBlk m c t) (uBlk m c t) (aBlk m c t) (btBlk m c t) (ix2 p q) = stateArr m c (ix2 (row t p) q) := by
  refine (Body.state_block_eq _ _ _ _ p q).trans ?_
  exact Cert.Ssm.nextState_rows (row t) _ _ _ _ _ _ _ _ (xBlk_apply m c t) (uBlk_apply m c t)
    (fun q => aBlk_apply m c t q) (btBlk_apply m c t) p q

/-- The stored output block at `(p, q)` is the batch's output at row `1024·t + p`. -/
theorem out_point (c : Dev nD) (t : Fin cfg0.N) (p : Fin 1024) (q : Fin 256) :
    k0_pay3 (xBlk m c t) (uBlk m c t) (aBlk m c t) (btBlk m c t) (ctBlk m c t) (dtBlk m c t) (ix2 p q)
      = outArr m c (ix2 (row t p) q) := by
  refine (Body.output_block _ _ _ _ _ _ p q).trans ?_
  exact Cert.Ssm.output_rows (row t) _ _ _ _ _ _ _ _ (fun p k => state_point m c t p k) (uBlk_apply m c t)
    (ctBlk_apply m c t) (dtBlk_apply m c t) p q

/-! ## Output window 6: the next state -/

theorem hz : (![0, 0] : Fin 2 → Nat) = fun _ => 0 := funext fun a => by fin_cases a <;> rfl

/-- Where an element of point `t`'s block sits in the array. -/
theorem emb6 (t : Fin cfg0.N) (j : S1024x1024.Idx) : ((cfg0.win 6).blk t).view.emb j = ix2 (row t (j 0)) (j 1) := by
  funext a; apply Fin.ext
  obtain ⟨e0, e1⟩ := idx6 t
  match a with
  | ⟨0, _⟩ => show win0_6.index t (0 : Fin 2) * 1024 + 1 * (j 0).val = t.val * 1024 + (j 0).val; omega
  | ⟨1, _⟩ => show win0_6.index t (1 : Fin 2) * 1024 + 1 * (j 1).val = (j 1).val; omega

/-- What point `t` writes back is block `t` of the batch's next state. -/
theorem flushed6_eq (c : Dev nD) (t : Fin cfg0.N) :
    (dats m 0 c).flushed 6 t = ((cfg0.win 6).blk t).view.read (Elt Ideal) (stateArr m c) := by
  rw [Value.flushed6]
  unfold out0_6
  rw [View.canon_unit_zero hz]
  simp only [View.ld_unit_zero (S := S1024x1024) hz, View.ld_unit_zero (S := S1024x256) hz,
    View.ld_unit_zero (S := S1x1024) hz, View.ld_unit_zero (S := S256x1024) hz]
  funext j
  show k0_pay2 (xBlk m c t) (uBlk m c t) (aBlk m c t) (btBlk m c t) j = stateArr m c (((cfg0.win 6).blk t).view.emb j)
  rw [emb6 t j, eq_ix2 j]
  exact state_point m c t (j 0) (j 1)

theorem mem_blk6 (t : Fin cfg0.N) (i : S32768x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v17_0).slice (win0_6.rect t)).set ↔ _
  rw [View.set_slice_whole, Rect.mem_set_unit]
  exact Iff.rfl

/-- Row `r` of the batch lies in the block of point `r / 1024`. -/
theorem cover6 (i : S32768x1024.Idx) : ∃ t : Fin cfg0.N, (cfg0.win 6).flush t = true ∧ i ∈ ((cfg0.win 6).blk t).view.set := by
  have hi0 : (i 0).val < 32768 := (i 0).isLt
  have hi1 : (i 1).val < 1024 := (i 1).isLt
  have ht : (i 0).val / 1024 < grid0.N := by rw [N_0]; omega
  obtain ⟨e0, e1⟩ := idx6 ⟨(i 0).val / 1024, ht⟩
  refine ⟨⟨(i 0).val / 1024, ht⟩, flush0_6 _, ?_⟩
  rw [mem_blk6]
  intro a
  match a with
  | ⟨0, _⟩ =>
    show win0_6.index ⟨(i 0).val / 1024, ht⟩ (0 : Fin 2) * 1024 ≤ (i 0).val ∧ (i 0).val < win0_6.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, ht⟩ (1 : Fin 2) * 1024 ≤ (i 1).val ∧ (i 1).val < win0_6.index ⟨(i 0).val / 1024, ht⟩ (1 : Fin 2) * 1024 + 1024
    rw [e1]; omega

/-- The first result array after the run: the batch's next state. -/
theorem final6 (c : Dev nD) : (dats m 0 c).arrAt 6 cfg0.N = stateArr m c :=
  (dats m 0 c).arrAt_eq_of_cover 6 (stateArr m c) (fun t _ => flushed6_eq m c t) cover6

/-! ## Output window 7: the output -/

theorem emb7 (t : Fin cfg0.N) (j : S1024x256.Idx) : ((cfg0.win 7).blk t).view.emb j = ix2 (row t (j 0)) (j 1) := by
  funext a; apply Fin.ext
  obtain ⟨e0, e1⟩ := idx7 t
  match a with
  | ⟨0, _⟩ => show win0_7.index t (0 : Fin 2) * 1024 + 1 * (j 0).val = t.val * 1024 + (j 0).val; omega
  | ⟨1, _⟩ => show win0_7.index t (1 : Fin 2) * 256 + 1 * (j 1).val = (j 1).val; omega

/-- What point `t` writes back is block `t` of the batch's output. -/
theorem flushed7_eq (c : Dev nD) (t : Fin cfg0.N) :
    (dats m 0 c).flushed 7 t = ((cfg0.win 7).blk t).view.read (Elt Ideal) (outArr m c) := by
  rw [Value.flushed7]
  unfold out0_7
  rw [View.canon_unit_zero hz]
  simp only [View.ld_unit_zero (S := S1024x1024) hz, View.ld_unit_zero (S := S1024x256) hz,
    View.ld_unit_zero (S := S1x1024) hz, View.ld_unit_zero (S := S256x1024) hz, View.ld_unit_zero (S := S256x256) hz]
  funext j
  show k0_pay3 (xBlk m c t) (uBlk m c t) (aBlk m c t) (btBlk m c t) (ctBlk m c t) (dtBlk m c t) j
    = outArr m c (((cfg0.win 7).blk t).view.emb j)
  rw [emb7 t j, eq_ix2 j]
  exact out_point m c t (j 0) (j 1)

theorem mem_blk7 (t : Fin cfg0.N) (i : S32768x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v17_1).slice (win0_7.rect t)).set ↔ _
  rw [View.set_slice_whole, Rect.mem_set_unit]
  exact Iff.rfl

theorem cover7 (i : S32768x256.Idx) : ∃ t : Fin cfg0.N, (cfg0.win 7).flush t = true ∧ i ∈ ((cfg0.win 7).blk t).view.set := by
  have hi0 : (i 0).val < 32768 := (i 0).isLt
  have hi1 : (i 1).val < 256 := (i 1).isLt
  have ht : (i 0).val / 1024 < grid0.N := by rw [N_0]; omega
  obtain ⟨e0, e1⟩ := idx7 ⟨(i 0).val / 1024, ht⟩
  refine ⟨⟨(i 0).val / 1024, ht⟩, flush0_7 _, ?_⟩
  rw [mem_blk7]
  intro a
  match a with
  | ⟨0, _⟩ =>
    show win0_7.index ⟨(i 0).val / 1024, ht⟩ (0 : Fin 2) * 1024 ≤ (i 0).val ∧ (i 0).val < win0_7.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_7.index ⟨(i 0).val / 1024, ht⟩ (1 : Fin 2) * 256 ≤ (i 1).val ∧ (i 1).val < win0_7.index ⟨(i 0).val / 1024, ht⟩ (1 : Fin 2) * 256 + 256
    rw [e1]; omega

/-- The second result array after the run: the batch's output. -/
theorem final7 (c : Dev nD) : (dats m 0 c).arrAt 7 cfg0.N = outArr m c :=
  (dats m 0 c).arrAt_eq_of_cover 7 (outArr m c) (fun t _ => flushed7_eq m c t) cover7

/-! ## The run, read -/

/-- The kernel's run with both result arrays named as functions of the arrays the region finds, the arguments kept. -/
theorem run : θ_run defs (onTc (τ := τ) (main (F := Ideal))) ⟨m, fun _ => 0, ρ⟩ fun r => ∀ c : Dev nD,
      r.2.mem ((c : Thread nD τ).loc main_v17_0) = stateArr m c
      ∧ r.2.mem ((c : Thread nD τ).loc main_v17_1) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final6 m c), (h c).2.1.trans (final7 m c), (h c).2.2⟩)
    (Value.run_blocks m ρ)

end Cert.KernelIdeal.KValue

end
-- ==== Proof.KernelHost.lean ====
/-
  The arrays the kernel's region finds, as functions of the program's arguments.

  Before the region the program dequantizes its weights: the diagonal is the negated softplus of the quantized
  diagonal times its scale, reshaped from `[1024]` to `[1, 1024]`; each of the three matrices is the quantized matrix
  times its scale, transposed, and narrowed to sixteen bits, which is the identity on the extended reals. The state
  and the inputs are arguments and reach the region untouched. So the kernel's two results are the specification's
  functions of the arguments and of these dequantized weights.
-/
import proofs.«142602_j12369505812873_1_alg».proof.Proof.KernelValue
import Idealize.ShloMosaic.Lib.StableHlo.Run
import Idealize.ShloMosaic.Lib.ValueLayout

noncomputable section

namespace Cert.KernelIdeal.KHost

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The dequantized diagonal: the negated softplus of the quantized diagonal times its scale. -/
def diagTerm (c : Dev nD) : FVec Ideal S1024 .f32 :=
  Cert.Ssm.negSoftplus bcast_S_S1024 (mulf (m ((c : Thread nD τ).loc main_arg2)) (broadcastInDim S1024 ![] bcast_S_S1024 (m ((c : Thread nD τ).loc main_arg6))))

/-- The dequantized input matrix, transposed. -/
def btTerm (c : Dev nD) : FVec Ideal S256x1024 .f32 :=
  transpose S256x1024 [1, 0] (mulf (m ((c : Thread nD τ).loc main_arg3)) (broadcastInDim S1024x256 ![] bcast_S_S1024x256 (m ((c : Thread nD τ).loc main_arg7)))) transposes_S1024x256_S256x1024_1_0

/-- The dequantized output matrix, transposed. -/
def ctTerm (c : Dev nD) : FVec Ideal S1024x256 .f32 :=
  transpose S1024x256 [1, 0] (mulf (m ((c : Thread nD τ).loc main_arg4)) (broadcastInDim S256x1024 ![] bcast_S_S256x1024 (m ((c : Thread nD τ).loc main_arg8)))) transposes_S256x1024_S1024x256_1_0

/-- The dequantized feed-through matrix, transposed. -/
def dtTerm (c : Dev nD) : FVec Ideal S256x256 .f32 :=
  transpose S256x256 [1, 0] (mulf (m ((c : Thread nD τ).loc main_arg5)) (broadcastInDim S256x256 ![] bcast_S_S256x256 (m ((c : Thread nD τ).loc main_arg9)))) transposes_S256x256_S256x256_1_0

/-- The `[1, 1024]` array the region finds is the dequantized diagonal given a unit leading axis. -/
theorem aArr_eq (c : Dev nD) :
    V m c main_v10 = fun i => shapeCast S1x1024 (diagTerm m c) shapeCasts_S1024_S1x1024 i := by
  dsimp only [V]
  simp only [hostOps0, hostOps0_1, hostOps0_2, List.flatten_cons, List.flatten_nil, List.append_nil, List.cons_append,
    List.nil_append]
  after_results_simp
  rfl

/-- Its one row is the dequantized diagonal. -/
theorem diag_eq (c : Dev nD) : KValue.diag m c = diagTerm m c := by
  funext i
  obtain ⟨q, rfl⟩ : ∃ q : Fin 1024, i = ix1 q := ⟨i 0, eq_ix1 i⟩
  show V m c main_v10 (ix2 (0 : Fin 1) q) = diagTerm m c (ix1 q)
  rw [aArr_eq]
  exact shapeCast_a_1a_apply (diagTerm m c) shapeCasts_S1024_S1x1024 0 q

theorem btArr_eq (c : Dev nD) : (V m c main_v12 : S256x1024.Idx → EReal) = btTerm m c := by
  dsimp only [V]
  simp only [hostOps0, hostOps0_1, hostOps0_2, List.flatten_cons, List.flatten_nil, List.append_nil, List.cons_append,
    List.nil_append]
  after_results_simp
  rfl

theorem ctArr_eq (c : Dev nD) : (V m c main_v14 : S1024x256.Idx → EReal) = ctTerm m c := by
  dsimp only [V]
  simp only [hostOps0, hostOps0_1, hostOps0_2, List.flatten_cons, List.flatten_nil, List.append_nil, List.cons_append,
    List.nil_append]
  after_results_simp
  rfl

theorem dtArr_eq (c : Dev nD) : (V m c main_v16 : S256x256.Idx → EReal) = dtTerm m c := by
  dsimp only [V]
  simp only [hostOps0, hostOps0_1, hostOps0_2, List.flatten_cons, List.flatten_nil, List.append_nil, List.cons_append,
    List.nil_append]
  after_results_simp
  rfl

/-- The kernel's first result: the next state of the arguments under the dequantized weights. -/
theorem stateArr_eq (c : Dev nD) :
    KValue.stateArr m c = Cert.Ssm.nextState (m ((c : Thread nD τ).loc main_arg0)) (m ((c : Thread nD τ).loc main_arg1)) (diagTerm m c) (btTerm m c) := by
  show Cert.Ssm.nextState (V m c main_arg0) (V m c main_arg1) (KValue.diag m c) (V m c main_v12) = _
  rw [diag_eq, btArr_eq, V_main_arg0, V_main_arg1]

/-- The kernel's second result: the output of that next state under the dequantized weights. -/
theorem outArr_eq (c : Dev nD) :
    KValue.outArr m c = Cert.Ssm.output (Cert.Ssm.nextState (m ((c : Thread nD τ).loc main_arg0)) (m ((c : Thread nD τ).loc main_arg1)) (diagTerm m c) (btTerm m c)) (m ((c : Thread nD τ).loc main_arg1))
      (ctTerm m c) (dtTerm m c) := by
  show Cert.Ssm.output (KValue.stateArr m c) (V m c main_arg1) (V m c main_v14) (V m c main_v16) = _
  rw [stateArr_eq, ctArr_eq, dtArr_eq, V_main_arg1]

end Cert.KernelIdeal.KHost

end
-- ==== Proof.RefValue.lean ====
/-
  The reference's two results are the specification's functions of its (dequantized, transposed) weights.

  The reference multiplies the state by the diagonal repeated down the batch (a row of length 1024 given a unit
  leading axis, then repeated over the 32768 rows), adds the plain product of the inputs with the transposed input
  matrix, and forms the output as the plain product of that sum with the transposed output matrix plus the plain
  product of the inputs with the transposed feed-through matrix. Each product is a sum over the contracted axis.
-/
import proofs.«142602_j12369505812873_1_alg».proof.Proof.Gen.ReferenceIdeal.Run
import proofs.«142602_j12369505812873_1_alg».proof.Proof.LibPlainDot
import proofs.«142602_j12369505812873_1_alg».proof.Proof.Spec
import Idealize.ShloMosaic.Lib.Pipeline.Value

open scoped BigOperators

noncomputable section

namespace Cert.ReferenceIdeal.RefValue

open Cert.ReferenceIdeal Idealize.ShloMosaic Idealize.ShloMosaic.TcCoe Idealize.ShloMosaic.ValueIdx
open Cert.ReferenceIdeal.Facts₀

/-- The diagonal, given a unit leading axis and repeated over the batch, read at `(p, q)`, is its entry `q`. -/
theorem diag_rows (a : FVec Ideal S1024 .f32) (p : Fin 32768) (q : Fin 1024) :
    broadcastInDim S32768x1024 ![0, 1] bcast_S1x1024_S32768x1024_0_1 (broadcastInDim S1x1024 ![1] bcast_S1024_S1x1024_1 a) (ix2 p q)
      = a (ix1 q) := by
  rw [broadcastInDim_apply ![0, 1] bcast_S1x1024_S32768x1024_0_1 _ (ix2 p q) (ix2 (0 : Fin 1) q) (fun ax => ?_),
    broadcastInDim_apply ![1] bcast_S1024_S1x1024_1 a (ix2 (0 : Fin 1) q) (ix1 q) (fun ax => ?_)]
  · match ax with
    | ⟨0, _⟩ => show q.val = if (1024 : Nat) = 1 then 0 else q.val; rw [if_neg (by decide)]
  · match ax with
    | ⟨0, _⟩ => rfl
    | ⟨1, _⟩ => show q.val = if (1024 : Nat) = 1 then 0 else q.val; rw [if_neg (by decide)]

/-- The reference's first result is the next state. -/
theorem state_eq (x : FVec Ideal S32768x1024 .f32) (u : FVec Ideal S32768x256 .f32) (a : FVec Ideal S1024 .f32)
    (bt : FVec Ideal S256x1024 .f32) :
    addf (mulf x (broadcastInDim S32768x1024 ![0, 1] bcast_S1x1024_S32768x1024_0_1 (broadcastInDim S1x1024 ![1] bcast_S1024_S1x1024_1 a)))
        (Host.dotGeneral dot_S32768x256_S256x1024_S32768x1024_1_0_0_1_n_n none u bt)
      = Cert.Ssm.nextState x u a bt := by
  funext i
  obtain ⟨p, q, rfl⟩ : ∃ (p : Fin 32768) (q : Fin 1024), i = ix2 p q := ⟨i 0, i 1, eq_ix2 i⟩
  rw [addf_apply, mulf_apply, diag_rows,
    PlainDot.dotGeneral_apply dot_S32768x256_S256x1024_S32768x1024_1_0_0_1_n_n rfl rfl rfl rfl rfl rfl rfl rfl]
  rfl

/-- The reference's second result is the output, over any next state. -/
theorem output_eq (xn : FVec Ideal S32768x1024 .f32) (u : FVec Ideal S32768x256 .f32) (ct : FVec Ideal S1024x256 .f32)
    (dt : FVec Ideal S256x256 .f32) :
    addf (Host.dotGeneral dot_S32768x1024_S1024x256_S32768x256_1_0_0_1_n_n none xn ct)
        (Host.dotGeneral dot_S32768x256_S256x256_S32768x256_1_0_0_1_n_n none u dt)
      = Cert.Ssm.output xn u ct dt := by
  funext i
  obtain ⟨p, q, rfl⟩ : ∃ (p : Fin 32768) (q : Fin 256), i = ix2 p q := ⟨i 0, i 1, eq_ix2 i⟩
  rw [addf_apply,
    PlainDot.dotGeneral_apply dot_S32768x1024_S1024x256_S32768x256_1_0_0_1_n_n rfl rfl rfl rfl rfl rfl rfl rfl,
    PlainDot.dotGeneral_apply dot_S32768x256_S256x256_S32768x256_1_0_0_1_n_n rfl rfl rfl rfl rfl rfl rfl rfl]
  rfl

end Cert.ReferenceIdeal.RefValue

end
-- ==== Proof.lean ====
/-
  A quantized state-space step: the kernel computes what the reference computes, over the extended reals.

  Both programs dequantize four weights outside any kernel (the diagonal as the negated softplus of the quantized
  diagonal times its scale; three matrices as quantized matrix times scale, transposed) and then form, for a batch
  of 32768 rows,
    x'[p, q] = x[p, q] · a[q] + ∑ k < 256, u[p, k] · bt[k, q]
    y[p, q]  = ∑ k < 1024, x'[p, k] · ct[k, q] + ∑ k < 256, u[p, k] · dt[k, q].
  The reference does it with three whole matrix products; the kernel does it 1024 rows at a time, with the operands
  of its products narrowed to sixteen bits and each product accumulated into zero. On the extended reals the
  narrowing is the identity and a product into zero is the plain sum over the contracted axis, a row of a result
  depends on that row of the operands only, and the 32 blocks of rows tile the batch: the two programs' results are
  the same two functions of the arguments (`Cert.Ssm.nextState`, `Cert.Ssm.output`), entry by entry. No law beyond the
  products' reading as sums is used, so the finiteness of the inputs is never opened.

  The frames of the two kernel programs are their generated frame runs; the reference's is its generated run with
  the results dropped. The idealization rewrote no operation, so there is nothing to preserve.
-/
import proofs.«142602_j12369505812873_1_alg».proof.Defs
import proofs.«142602_j12369505812873_1_alg».proof.Proof.Gen.Kernel
import proofs.«142602_j12369505812873_1_alg».proof.Proof.Gen.Kernel.Skeleton
import proofs.«142602_j12369505812873_1_alg».proof.Proof.Gen.Kernel.Launch
import proofs.«142602_j12369505812873_1_alg».proof.Proof.Gen.Kernel.Points
import proofs.«142602_j12369505812873_1_alg».proof.Proof.Gen.Kernel.Frame
import proofs.«142602_j12369505812873_1_alg».proof.Proof.Gen.KernelIdeal
import proofs.«142602_j12369505812873_1_alg».proof.Proof.Gen.KernelIdeal.Skeleton
import proofs.«142602_j12369505812873_1_alg».proof.Proof.Gen.KernelIdeal.Launch
import proofs.«142602_j12369505812873_1_alg».proof.Proof.Gen.KernelIdeal.Points
import proofs.«142602_j12369505812873_1_alg».proof.Proof.Gen.KernelIdeal.Frame
import proofs.«142602_j12369505812873_1_alg».proof.Proof.Gen.ReferenceIdeal
import proofs.«142602_j12369505812873_1_alg».proof.Proof.Gen.Pre_finite_inputs
import proofs.«142602_j12369505812873_1_alg».proof.Proof.Gen.KernelIdeal.Value
import proofs.«142602_j12369505812873_1_alg».proof.Proof.Gen.ReferenceIdeal.Run
import proofs.«142602_j12369505812873_1_alg».proof.Proof.KernelHost
import proofs.«142602_j12369505812873_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From arguments that agree, the kernel's two result arrays (the blocks' results, tiled) and the reference's two
    results (its products read as sums) are the specification's next state and output of the arguments under the
    dequantized weights. -/
theorem algebraic : Cert.algebraic_KernelIdeal_ReferenceIdeal := by
  intro m ρ m' ρ' _ hagree
  refine ⟨fun c => Cert.KernelIdeal.KValue.stateArr m c, fun c => Cert.KernelIdeal.KValue.outArr m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9⟩ := hagree c
    rw [e0, e1, e2, e3, e6, e7]
    exact (Cert.ReferenceIdeal.RefValue.state_eq _ _ _ _).trans (Cert.KernelIdeal.KHost.stateArr_eq m c).symm
  · obtain ⟨e0, e1, e2, e3, e4, e5, e6, e7, e8, e9⟩ := hagree c
    rw [e0, e1, e2, e3, e4, e5, e6, e7, e8, e9]
    exact ((Cert.ReferenceIdeal.RefValue.output_eq _ _ _ _).trans
      (congrArg (fun s => Cert.Ssm.output s _ _ _) (Cert.ReferenceIdeal.RefValue.state_eq _ _ _ _))).trans
      (Cert.KernelIdeal.KHost.outArr_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
